-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S800000 32) (main_arg3 : IVec S800000 32) (main_arg4 : FVec F S192x256 .f32) (main_arg5 : FVec F S256 .f32) (main_arg6 : FVec F S256x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg4
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S64x256 : Shape := ⟨2, ![64, 256]⟩
abbrev S2000x64 : Shape := ⟨2, ![2000, 64]⟩
abbrev S2000x256 : Shape := ⟨2, ![2000, 256]⟩
abbrev S1x256 : Shape := ⟨2, ![1, 256]⟩
abbrev S1x64 : Shape := ⟨2, ![1, 64]⟩

abbrev nBuf : Space → Nat
  | .hbm => 20
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S64x256, .f32⟩
  | .hbm, ⟨17, _⟩ => ⟨S64x256, .f32⟩
  | .hbm, ⟨18, _⟩ => ⟨S64x256, .f32⟩
  | .hbm, ⟨19, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S256, .f32⟩
  | .local _ .vmem, ⟨10, _⟩ => ⟨S256x64, .f32⟩
  | .local _ .vmem, ⟨11, _⟩ => ⟨S64, .f32⟩
  | .local _ .vmem, ⟨12, _⟩ => ⟨S2000x64, .f32⟩
  | .local _ .vmem, ⟨13, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  slices_S192x256_S64x256_0_0 : S192x256.Slices ![0, 0] S64x256
  slices_S192x256_S64x256_64_0 : S192x256.Slices ![64, 0] S64x256
  slices_S192x256_S64x256_128_0 : S192x256.Slices ![128, 0] S64x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x64_S256x64_0_0 : ∀ a, (![0, 0] : Fin 2 → Nat) a + S256x64.size a ≤ S256x64.size a
  h_S256x64 : 0 < S256x64.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v2) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S50000x192 : Shape := ⟨2, ![50000, 192]⟩
abbrev S50000x256 : Shape := ⟨2, ![50000, 256]⟩
abbrev S1x256 : Shape := ⟨2, ![1, 256]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x192, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x64_S50000x64_S50000x64_S50000x192_d1 : Shape.Concatenates [S50000x64, S50000x64, S50000x64] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  dot_S50000x192_S192x256_S50000x256_1_0_0_1_n_n_wf : DotDims.WF S50000x192 S192x256 S50000x256 [1] [0] [0] [1] [] []
  dot_S50000x256_S256x64_S50000x64_1_0_0_1_n_n_wf : DotDims.WF S50000x256 S256x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.Perceptron.lean ====
/-
  The function both programs compute, written once on the extended reals.

  A node's new features are a two-layer perceptron of 192 numbers: its incoming aggregate, its outgoing aggregate
  and its own features, 64 each, laid side by side:

      out j = (∑ k < 256, max (pre k) 0 · W₂ k j) + b₂ j,        pre k = (∑ a < 192, x a · W₁ a k) + b₁ k.

  One program contracts the 192 inputs against W₁ in one sum. The other never lays the three parts side by side: it
  contracts each 64-wide part against the matching 64 rows of W₁ and adds the three partial sums, in the order
  (incoming + outgoing) + own. The two agree because a sum over 192 = 64 + 64 + 64 indices is the sum of the sums
  over its three consecutive thirds. That uses only that addition is commutative and associative, so it holds on
  the extended reals as it stands: no entry needs to be finite.
-/
import Mathlib.Algebra.BigOperators.Fin
import Idealize.ShloMosaic.Lib.ValueIdx

noncomputable section

namespace Cert.Perceptron

open Idealize.ShloMosaic Idealize.ShloMosaic.ValueIdx

/-- A sum over 192 indices is the sum over the first 64, plus the sum over the next 64, plus the sum over the last 64. -/
theorem sum_thirds {M : Type} [AddCommMonoid M] (f : Fin 192 → M) :
    ∑ a : Fin 192, f a
      = (∑ a : Fin 64, f ⟨a.val, by have := a.isLt; omega⟩ + ∑ a : Fin 64, f ⟨64 + a.val, by have := a.isLt; omega⟩)
        + ∑ a : Fin 64, f ⟨128 + a.val, by have := a.isLt; omega⟩ := by
  refine (Fin.sum_univ_add (a := 64 + 64) (b := 64) f).trans ?_
  refine (congrArg (· + ∑ i : Fin 64, f (Fin.natAdd (64 + 64) i))
    (Fin.sum_univ_add (a := 64) (b := 64) fun i => f (Fin.castAdd 64 i))).trans ?_
  rfl

/-- Hidden unit `k` before the rectifier, from the three 64-wide parts of the input and the three 64-row blocks of the
    first weight matrix: (incoming part + outgoing part) + own part, then the bias. -/
def pre (xi xo xn : Fin 64 → EReal) (Wi Wo Wn : Fin 64 → Fin 256 → EReal) (b₁ : Fin 256 → EReal) (k : Fin 256) : EReal :=
  ((∑ a : Fin 64, xi a * Wi a k + ∑ a : Fin 64, xo a * Wo a k) + ∑ a : Fin 64, xn a * Wn a k) + b₁ k

/-- Output feature `j`: the rectified hidden layer against the second weight matrix, then the bias. -/
def out (xi xo xn : Fin 64 → EReal) (Wi Wo Wn : Fin 64 → Fin 256 → EReal) (b₁ : Fin 256 → EReal)
    (W₂ : Fin 256 → Fin 64 → EReal) (b₂ : Fin 64 → EReal) (j : Fin 64) : EReal :=
  (∑ k : Fin 256, max (pre xi xo xn Wi Wo Wn b₁ k) 0 * W₂ k j) + b₂ j

/-- The one-sum form: contracting all 192 inputs against all 192 rows of the first weight matrix is `pre` of the three
    thirds. -/
theorem pre_of_joint (x : Fin 192 → EReal) (W : Fin 192 → Fin 256 → EReal) (b₁ : Fin 256 → EReal) (k : Fin 256) :
    (∑ a : Fin 192, x a * W a k) + b₁ k
      = pre (fun a => x ⟨a.val, by have := a.isLt; omega⟩) (fun a => x ⟨64 + a.val, by have := a.isLt; omega⟩)
          (fun a => x ⟨128 + a.val, by have := a.isLt; omega⟩)
          (fun a => W ⟨a.val, by have := a.isLt; omega⟩) (fun a => W ⟨64 + a.val, by have := a.isLt; omega⟩)
          (fun a => W ⟨128 + a.val, by have := a.isLt; omega⟩) b₁ k := by
  unfold pre
  rw [sum_thirds]

/-! ## The whole array

The node features after the update, as one function of the seven arrays, index by index: row `r` of the result is the
perceptron of row `r` of the two aggregates and of the node features. -/

/-- The update at node `r`, output feature `j`. -/
def updateAt (A B C : (⟨2, ![50000, 64]⟩ : Shape).Idx → EReal) (W₁ : (⟨2, ![192, 256]⟩ : Shape).Idx → EReal)
    (b₁ : (⟨1, ![256]⟩ : Shape).Idx → EReal) (W₂ : (⟨2, ![256, 64]⟩ : Shape).Idx → EReal)
    (b₂ : (⟨1, ![64]⟩ : Shape).Idx → EReal) (r : Fin 50000) (j : Fin 64) : EReal :=
  out (fun a => A (ix2 r a)) (fun a => B (ix2 r a)) (fun a => C (ix2 r a))
    (fun a k => W₁ (ix2 (⟨a.val, by have := a.isLt; omega⟩ : Fin 192) k))
    (fun a k => W₁ (ix2 (⟨64 + a.val, by have := a.isLt; omega⟩ : Fin 192) k))
    (fun a k => W₁ (ix2 (⟨128 + a.val, by have := a.isLt; omega⟩ : Fin 192) k))
    (fun k => b₁ (ix1 k)) (fun k j => W₂ (ix2 k j)) (fun j => b₂ (ix1 j)) j

/-- The updated node features as an array. -/
def update (A B C : (⟨2, ![50000, 64]⟩ : Shape).Idx → EReal) (W₁ : (⟨2, ![192, 256]⟩ : Shape).Idx → EReal)
    (b₁ : (⟨1, ![256]⟩ : Shape).Idx → EReal) (W₂ : (⟨2, ![256, 64]⟩ : Shape).Idx → EReal)
    (b₂ : (⟨1, ![64]⟩ : Shape).Idx → EReal) : (⟨2, ![50000, 64]⟩ : Shape).Idx → EReal :=
  fun i => updateAt A B C W₁ b₁ W₂ b₂ (i 0) (i 1)

theorem update_apply (A B C : (⟨2, ![50000, 64]⟩ : Shape).Idx → EReal) (W₁ : (⟨2, ![192, 256]⟩ : Shape).Idx → EReal)
    (b₁ : (⟨1, ![256]⟩ : Shape).Idx → EReal) (W₂ : (⟨2, ![256, 64]⟩ : Shape).Idx → EReal)
    (b₂ : (⟨1, ![64]⟩ : Shape).Idx → EReal) (r : Fin 50000) (j : Fin 64) :
    update A B C W₁ b₁ W₂ b₂ (ix2 r j) = updateAt A B C W₁ b₁ W₂ b₂ r j := rfl

end Cert.Perceptron

end
-- ==== Proof.KernelBody.lean ====
/-
  What the kernel's body computes on one block of 2000 nodes.

  The body loads the block's rows of the two aggregates and of the node features (2000 × 64 each), the three 64-row
  blocks of the first weight matrix, the second weight matrix and the two biases, and stores

      ((in · Wi + out · Wo) + node · Wn + b₁ along the rows, rectified) · W₂ + b₂ along the rows.

  On the extended reals the narrowing to bf16 in front of each product is the identity, and a matrix product into a
  zero accumulator is the plain sum over the contracted index. So entry (p, q) of the stored block is
  `Perceptron.out` of row `p` of the three loaded blocks, at feature `q`.
-/
import proofs.«152120_j69346541961223_1_alg».proof.Proof.Gen.KernelIdeal.Skeleton
import proofs.«152120_j69346541961223_1_alg».proof.Proof.Perceptron
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-! ## The first layer's product: [2000, 64] · [64, 256], contracted over the 64 -/

theorem lhs_first_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhs_first_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhs_first_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhs_first_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- Entry (p, c) of a 2000 × 64 block times a 64 × 256 block, accumulated from zero: the sum over the 64 of the
    products. -/
theorem first_product_apply {φ₁ φ₂ : FTy} (l : FVec Ideal S2000x64 φ₁) (w : FVec Ideal S64x256 φ₂) (p : Fin 2000) (c : Fin 256) :
    matmul dot_S2000x64_S64x256_S2000x256_1_0_0_1_n_n none l w (constant (F := Ideal) S2000x256 .f32 0x00000000#32) (ix2 p c)
      = ∑ a : Fin 64, l (ix2 p a) * w (ix2 a c) := by
  simp only [matmul]
  rw [Ideal.matmul_constant_zero_apply, ← Equiv.sum_comp (ValueIdx.contrEquiv1 dot_S2000x64_S64x256_S2000x256_1_0_0_1_n_n 64 rfl rfl).symm]
  refine Finset.sum_congr rfl fun k _ => ?_
  have hk := ValueIdx.contrEquiv1_symm_val dot_S2000x64_S64x256_S2000x256_1_0_0_1_n_n 64 rfl rfl k
  have el : dot_S2000x64_S64x256_S2000x256_1_0_0_1_n_n.lhsIdx (ix2 p c) ((ValueIdx.contrEquiv1 dot_S2000x64_S64x256_S2000x256_1_0_0_1_n_n 64 rfl rfl).symm k) = ix2 p k := funext fun a => Fin.ext (by
    match a with
    | ⟨0, _⟩ => exact lhs_first_0 _ _
    | ⟨1, _⟩ => exact (lhs_first_1 _ _).trans hk)
  have er : dot_S2000x64_S64x256_S2000x256_1_0_0_1_n_n.rhsIdx (ix2 p c) ((ValueIdx.contrEquiv1 dot_S2000x64_S64x256_S2000x256_1_0_0_1_n_n 64 rfl rfl).symm k) = ix2 k c := funext fun a => Fin.ext (by
    match a with
    | ⟨0, _⟩ => exact (rhs_first_0 _ _).trans hk
    | ⟨1, _⟩ => exact rhs_first_1 _ _)
  rw [el, er]

/-! ## The second layer's product: [2000, 256] · [256, 64], contracted over the 256 -/

theorem lhs_second_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_second_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_second_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_second_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Entry (p, q) of a 2000 × 256 block times a 256 × 64 block, accumulated from zero: the sum over the 256 of the
    products. -/
theorem second_product_apply {φ₁ φ₂ : FTy} (l : FVec Ideal S2000x256 φ₁) (w : FVec Ideal S256x64 φ₂) (p : Fin 2000) (q : Fin 64) :
    matmul dot_S2000x256_S256x64_S2000x64_1_0_0_1_n_n none l w (constant (F := Ideal) S2000x64 .f32 0x00000000#32) (ix2 p q)
      = ∑ k : Fin 256, l (ix2 p k) * w (ix2 k q) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The stored block, entry by entry -/

/-- Entry (p, q) of what the body stores is the perceptron of row `p` of the three loaded feature blocks. -/
theorem stored_apply (x0 x1 x2 : Vec Ideal S2000x64 .f32) (w0 w1 w2 : Vec Ideal S64x256 .f32) (w : Vec Ideal S256x64 .f32)
    (c1 : Vec Ideal S256 .f32) (c2 : Vec Ideal S64 .f32) (p : Fin 2000) (q : Fin 64) :
    k0_pay1 (F := Ideal) x0 x1 x2 w0 w1 w2 w c1 c2 (ix2 p q)
      = Perceptron.out (fun a => x0 (ix2 p a)) (fun a => x1 (ix2 p a)) (fun a => x2 (ix2 p a))
          (fun a k => w0 (ix2 a k)) (fun a k => w1 (ix2 a k)) (fun a k => w2 (ix2 a k))
          (fun k => c1 (ix1 k)) (fun k j => w (ix2 k j)) (fun j => c2 (ix1 j)) q := by
  unfold k0_pay1 Perceptron.out Perceptron.pre
  dsimp only
  rw [addf_apply, second_product_apply, broadcastTo_1b_ab_apply, shapeCast_a_1a_apply]
  refine congrArg (· + c2 (ix1 q)) (Finset.sum_congr rfl fun k _ => ?_)
  rw [truncf_apply, truncf_apply, maximumf_apply, addf_apply, addf_apply, addf_apply,
    first_product_apply, first_product_apply, first_product_apply, broadcastTo_1b_ab_apply, shapeCast_a_1a_apply, broadcast_apply]
  simp only [truncf_apply, shapeCast_self]
  show max _ (Ideal.ofBits .f32 0x00000000#32) * _ = _
  rw [Ideal.ofBits_zero_f32]

/-- The same entry when the loaded blocks are known to be pieces of whole arrays: if row `p` of the three feature blocks is row
    `r` of the arrays `A`, `B`, `C`, the three weight blocks are the three consecutive 64-row blocks of `W₁`, and the other
    three blocks are `b₁`, `W₂`, `b₂` whole, then entry (p, q) of the stored block is the update at node `r`, feature `q`. -/
theorem block_entry (A B C : S50000x64.Idx → EReal) (W₁ : S192x256.Idx → EReal) (b₁ : S256.Idx → EReal)
    (W₂ : S256x64.Idx → EReal) (b₂ : S64.Idx → EReal)
    (x0 x1 x2 : Vec Ideal S2000x64 .f32) (w0 w1 w2 : Vec Ideal S64x256 .f32) (w : Vec Ideal S256x64 .f32)
    (c1 : Vec Ideal S256 .f32) (c2 : Vec Ideal S64 .f32) (r : Fin 50000) (p : Fin 2000) (q : Fin 64)
    (h0 : ∀ a : Fin 64, x0 (ix2 p a) = A (ix2 r a)) (h1 : ∀ a : Fin 64, x1 (ix2 p a) = B (ix2 r a))
    (h2 : ∀ a : Fin 64, x2 (ix2 p a) = C (ix2 r a))
    (h3 : ∀ (a : Fin 64) (k : Fin 256), w0 (ix2 a k) = W₁ (ix2 (⟨a.val, by have := a.isLt; omega⟩ : Fin 192) k))
    (h4 : ∀ (a : Fin 64) (k : Fin 256), w1 (ix2 a k) = W₁ (ix2 (⟨64 + a.val, by have := a.isLt; omega⟩ : Fin 192) k))
    (h5 : ∀ (a : Fin 64) (k : Fin 256), w2 (ix2 a k) = W₁ (ix2 (⟨128 + a.val, by have := a.isLt; omega⟩ : Fin 192) k))
    (h6 : ∀ k : Fin 256, c1 (ix1 k) = b₁ (ix1 k)) (h7 : ∀ (k : Fin 256) (j : Fin 64), w (ix2 k j) = W₂ (ix2 k j))
    (h8 : ∀ j : Fin 64, c2 (ix1 j) = b₂ (ix1 j)) :
    k0_pay1 (F := Ideal) x0 x1 x2 w0 w1 w2 w c1 c2 (ix2 p q) = Perceptron.updateAt A B C W₁ b₁ W₂ b₂ r q := by
  rw [stored_apply]
  unfold Perceptron.updateAt
  simp only [h0, h1, h2, h3, h4, h5, h6, h7, h8]

end Cert.KernelIdeal.Body

end
-- ==== Proof.KernelArray.lean ====
/-
  From the kernel's blocks to its whole output array.

  The grid has 25 points. At point `t` the three feature windows hold rows 2000·t … 2000·t + 1999 of the incoming
  aggregate, of the outgoing aggregate and of the node features; the six parameter windows hold, at every point, the
  three 64-row blocks of the first weight matrix (cut from it before the launch), its bias, the second weight matrix
  and its bias, whole. The output window writes back rows 2000·t … 2000·t + 1999. So what point `t` writes is block `t`
  of ONE array — the perceptron update of the aggregates and the node features — and the 25 blocks tile the 50000
  rows, so the output array ends holding that array.
-/
import proofs.«152120_j69346541961223_1_alg».proof.Proof.Gen.KernelIdeal.Value
import proofs.«152120_j69346541961223_1_alg».proof.Proof.KernelBody
import Idealize.ShloMosaic.Lib.StableHlo.Run
import Idealize.ShloMosaic.Lib.ValueLayout

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-! ## The arrays the host computes before the launch -/

/-- The incoming aggregate: the edge features added into a zero array at the receivers' rows. -/
theorem incoming_eq (c : Dev nD) :
    (V m c main_v2 : S50000x64.Idx → EReal)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (m ((c : Thread nD τ).loc main_arg3)))
          (m ((c : Thread nD τ).loc main_arg1)) := by
  dsimp only [V, hostOps0]; after_results <;> rfl

/-- The outgoing aggregate: the same at the senders' rows. -/
theorem outgoing_eq (c : Dev nD) :
    (V m c main_v5 : S50000x64.Idx → EReal)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (m ((c : Thread nD τ).loc main_arg2)))
          (m ((c : Thread nD τ).loc main_arg1)) := by
  dsimp only [V, hostOps0]; after_results <;> rfl

/-- Rows 0 … 63 of the first weight matrix. -/
theorem weights_first (c : Dev nD) :
    (V m c main_v6 : S64x256.Idx → EReal)
      = extractStridedSlice S64x256 ![0, 0] (m ((c : Thread nD τ).loc main_arg4)) slices_S192x256_S64x256_0_0 := by
  dsimp only [V, hostOps0]; after_results <;> rfl
/-- Rows 64 … 127. -/
theorem weights_second (c : Dev nD) :
    (V m c main_v7 : S64x256.Idx → EReal)
      = extractStridedSlice S64x256 ![64, 0] (m ((c : Thread nD τ).loc main_arg4)) slices_S192x256_S64x256_64_0 := by
  dsimp only [V, hostOps0]; after_results <;> rfl
/-- Rows 128 … 191. -/
theorem weights_third (c : Dev nD) :
    (V m c main_v8 : S64x256.Idx → EReal)
      = extractStridedSlice S64x256 ![128, 0] (m ((c : Thread nD τ).loc main_arg4)) slices_S192x256_S64x256_128_0 := by
  dsimp only [V, hostOps0]; after_results <;> rfl

/-! ## The block indices, decided over the 25 points -/

/-- The three feature windows and the output window are at block (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

/-- The six parameter windows stay at block 0. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0 :=
  (by decide +kernel : ∀ t : Fin grid0.N, _)

/-! ## Each window's block, read at coordinates

First for any array behind the window: which entry of the array an entry of the block is. -/

section Blocks
variable (c : Dev nD) (t : Fin cfg0.N)

/-- Row `p` of the block that the first feature window holds at point `t` is row 2000·t + p of its array. -/
theorem rows_first (A : S50000x64.Idx → EReal) (p : Fin 2000) (a : Fin 64) (r : Fin 50000) (hr : r.val = t.val * 2000 + p.val) :
    ((cfg0.win 0).blk t).view.read (Elt Ideal) A (ix2 p a) = A (ix2 r a) := by
  rw [View.read_apply]
  refine congrArg A (funext fun d => Fin.ext ?_)
  match d with
  | ⟨0, _⟩ => show win0_0.index t 0 * 2000 + 1 * p.val = r.val; rw [(idx_rows t).1.1, hr]; omega
  | ⟨1, _⟩ => show win0_0.index t 1 * 64 + 1 * a.val = a.val; rw [(idx_rows t).1.2]; omega

/-- The same through the second feature window. -/
theorem rows_second (A : S50000x64.Idx → EReal) (p : Fin 2000) (a : Fin 64) (r : Fin 50000) (hr : r.val = t.val * 2000 + p.val) :
    ((cfg0.win 1).blk t).view.read (Elt Ideal) A (ix2 p a) = A (ix2 r a) := by
  rw [View.read_apply]
  refine congrArg A (funext fun d => Fin.ext ?_)
  match d with
  | ⟨0, _⟩ => show win0_1.index t 0 * 2000 + 1 * p.val = r.val; rw [(idx_rows t).2.1.1, hr]; omega
  | ⟨1, _⟩ => show win0_1.index t 1 * 64 + 1 * a.val = a.val; rw [(idx_rows t).2.1.2]; omega

/-- The same through the third feature window. -/
theorem rows_third (A : S50000x64.Idx → EReal) (p : Fin 2000) (a : Fin 64) (r : Fin 50000) (hr : r.val = t.val * 2000 + p.val) :
    ((cfg0.win 2).blk t).view.read (Elt Ideal) A (ix2 p a) = A (ix2 r a) := by
  rw [View.read_apply]
  refine congrArg A (funext fun d => Fin.ext ?_)
  match d with
  | ⟨0, _⟩ => show win0_2.index t 0 * 2000 + 1 * p.val = r.val; rw [(idx_rows t).2.2.1.1, hr]; omega
  | ⟨1, _⟩ => show win0_2.index t 1 * 64 + 1 * a.val = a.val; rw [(idx_rows t).2.2.1.2]; omega

/-- The fourth window's block is its whole [64, 256] array. -/
theorem whole_fourth (W : S64x256.Idx → EReal) (a : Fin 64) (k : Fin 256) :
    ((cfg0.win 3).blk t).view.read (Elt Ideal) W (ix2 a k) = W (ix2 a k) := by
  rw [View.read_apply]
  refine congrArg W (funext fun d => Fin.ext ?_)
  match d with
  | ⟨0, _⟩ => show win0_3.index t 0 * 64 + 1 * a.val = a.val; rw [(idx_whole t).1.1]; omega
  | ⟨1, _⟩ => show win0_3.index t 1 * 256 + 1 * k.val = k.val; rw [(idx_whole t).1.2]; omega

/-- So is the fifth's. -/
theorem whole_fifth (W : S64x256.Idx → EReal) (a : Fin 64) (k : Fin 256) :
    ((cfg0.win 4).blk t).view.read (Elt Ideal) W (ix2 a k) = W (ix2 a k) := by
  rw [View.read_apply]
  refine congrArg W (funext fun d => Fin.ext ?_)
  match d with
  | ⟨0, _⟩ => show win0_4.index t 0 * 64 + 1 * a.val = a.val; rw [(idx_whole t).2.1.1]; omega
  | ⟨1, _⟩ => show win0_4.index t 1 * 256 + 1 * k.val = k.val; rw [(idx_whole t).2.1.2]; omega

/-- So is the sixth's. -/
theorem whole_sixth (W : S64x256.Idx → EReal) (a : Fin 64) (k : Fin 256) :
    ((cfg0.win 5).blk t).view.read (Elt Ideal) W (ix2 a k) = W (ix2 a k) := by
  rw [View.read_apply]
  refine congrArg W (funext fun d => Fin.ext ?_)
  match d with
  | ⟨0, _⟩ => show win0_5.index t 0 * 64 + 1 * a.val = a.val; rw [(idx_whole t).2.2.1.1]; omega
  | ⟨1, _⟩ => show win0_5.index t 1 * 256 + 1 * k.val = k.val; rw [(idx_whole t).2.2.1.2]; omega

/-- The seventh window's block is its whole 256-vector. -/
theorem whole_seventh (b : S256.Idx → EReal) (k : Fin 256) :
    ((cfg0.win 6).blk t).view.read (Elt Ideal) b (ix1 k) = b (ix1 k) := by
  rw [View.read_apply]
  refine congrArg b (funext fun d => Fin.ext ?_)
  match d with
  | ⟨0, _⟩ => show win0_6.index t 0 * 256 + 1 * k.val = k.val; rw [(idx_whole t).2.2.2.1]; omega

/-- The eighth window's block is its whole [256, 64] array. -/
theorem whole_eighth (W : S256x64.Idx → EReal) (k : Fin 256) (j : Fin 64) :
    ((cfg0.win 7).blk t).view.read (Elt Ideal) W (ix2 k j) = W (ix2 k j) := by
  rw [View.read_apply]
  refine congrArg W (funext fun d => Fin.ext ?_)
  match d with
  | ⟨0, _⟩ => show win0_7.index t 0 * 256 + 1 * k.val = k.val; rw [(idx_whole t).2.2.2.2.1.1]; omega
  | ⟨1, _⟩ => show win0_7.index t 1 * 64 + 1 * j.val = j.val; rw [(idx_whole t).2.2.2.2.1.2]; omega

/-- The ninth window's block is its whole 64-vector. -/
theorem whole_ninth (b : S64.Idx → EReal) (j : Fin 64) :
    ((cfg0.win 8).blk t).view.read (Elt Ideal) b (ix1 j) = b (ix1 j) := by
  rw [View.read_apply]
  refine congrArg b (funext fun d => Fin.ext ?_)
  match d with
  | ⟨0, _⟩ => show win0_8.index t 0 * 64 + 1 * j.val = j.val; rw [(idx_whole t).2.2.2.2.2]; omega

/-! Then for the arrays the launch finds behind the nine windows. -/

/-- Row `p` of the incoming aggregate's block at point `t` is row 2000·t + p of the aggregate. -/
theorem incoming_block (p : Fin 2000) (a : Fin 64) (r : Fin 50000) (hr : r.val = t.val * 2000 + p.val) :
    (iblk m c 0 t : Vec Ideal S2000x64 .f32) (ix2 p a) = (V m c main_v2 : S50000x64.Idx → EReal) (ix2 r a) :=
  rows_first t (V m c main_v2) p a r hr

/-- The same for the outgoing aggregate. -/
theorem outgoing_block (p : Fin 2000) (a : Fin 64) (r : Fin 50000) (hr : r.val = t.val * 2000 + p.val) :
    (iblk m c 1 t : Vec Ideal S2000x64 .f32) (ix2 p a) = (V m c main_v5 : S50000x64.Idx → EReal) (ix2 r a) :=
  rows_second t (V m c main_v5) p a r hr

/-- The same for the node features, which no host operation has touched. -/
theorem node_block (p : Fin 2000) (a : Fin 64) (r : Fin 50000) (hr : r.val = t.val * 2000 + p.val) :
    (iblk m c 2 t : Vec Ideal S2000x64 .f32) (ix2 p a) = (m ((c : Thread nD τ).loc main_arg0) : S50000x64.Idx → EReal) (ix2 r a) :=
  (rows_third t (V m c main_arg0) p a r hr).trans (congrFun (V_main_arg0 m c) (ix2 r a))

/-- The fourth window holds rows 0 … 63 of the first weight matrix. -/
theorem weights_first_block (a : Fin 64) (k : Fin 256) :
    (iblk m c 3 t : Vec Ideal S64x256 .f32) (ix2 a k)
      = (m ((c : Thread nD τ).loc main_arg4) : S192x256.Idx → EReal) (ix2 (⟨a.val, by have := a.isLt; omega⟩ : Fin 192) k) :=
  (whole_fourth t (V m c main_v6) a k).trans ((congrFun (weights_first m c) (ix2 a k)).trans
    (slice2_axis0_apply 0 _ _ a k _ (Nat.zero_add _).symm))

/-- The fifth holds rows 64 … 127. -/
theorem weights_second_block (a : Fin 64) (k : Fin 256) :
    (iblk m c 4 t : Vec Ideal S64x256 .f32) (ix2 a k)
      = (m ((c : Thread nD τ).loc main_arg4) : S192x256.Idx → EReal) (ix2 (⟨64 + a.val, by have := a.isLt; omega⟩ : Fin 192) k) :=
  (whole_fifth t (V m c main_v7) a k).trans ((congrFun (weights_second m c) (ix2 a k)).trans
    (slice2_axis0_apply 64 _ _ a k _ rfl))

/-- The sixth holds rows 128 … 191. -/
theorem weights_third_block (a : Fin 64) (k : Fin 256) :
    (iblk m c 5 t : Vec Ideal S64x256 .f32) (ix2 a k)
      = (m ((c : Thread nD τ).loc main_arg4) : S192x256.Idx → EReal) (ix2 (⟨128 + a.val, by have := a.isLt; omega⟩ : Fin 192) k) :=
  (whole_sixth t (V m c main_v8) a k).trans ((congrFun (weights_third m c) (ix2 a k)).trans
    (slice2_axis0_apply 128 _ _ a k _ rfl))

/-- The seventh holds the first bias, whole. -/
theorem bias_first_block (k : Fin 256) :
    (iblk m c 6 t : Vec Ideal S256 .f32) (ix1 k) = (m ((c : Thread nD τ).loc main_arg5) : S256.Idx → EReal) (ix1 k) :=
  (whole_seventh t (V m c main_arg5) k).trans (congrFun (V_main_arg5 m c) (ix1 k))

/-- The eighth holds the second weight matrix, whole. -/
theorem weights_out_block (k : Fin 256) (j : Fin 64) :
    (iblk m c 7 t : Vec Ideal S256x64 .f32) (ix2 k j) = (m ((c : Thread nD τ).loc main_arg6) : S256x64.Idx → EReal) (ix2 k j) :=
  (whole_eighth t (V m c main_arg6) k j).trans (congrFun (V_main_arg6 m c) (ix2 k j))

/-- The ninth holds the second bias, whole. -/
theorem bias_out_block (j : Fin 64) :
    (iblk m c 8 t : Vec Ideal S64 .f32) (ix1 j) = (m ((c : Thread nD τ).loc main_arg7) : S64.Idx → EReal) (ix1 j) :=
  (whole_ninth t (V m c main_arg7) j).trans (congrFun (V_main_arg7 m c) (ix1 j))

end Blocks

/-! ## The whole array -/

/-- What the output array ends holding: the perceptron update of the two aggregates, as the launch finds them, and of
    the node features, with the parameters as launched. -/
def updated (c : Dev nD) : S50000x64.Idx → EReal :=
  Perceptron.update (V m c main_v2) (V m c main_v5) (m ((c : Thread nD τ).loc main_arg0)) (m ((c : Thread nD τ).loc main_arg4))
    (m ((c : Thread nD τ).loc main_arg5)) (m ((c : Thread nD τ).loc main_arg6)) (m ((c : Thread nD τ).loc main_arg7))

/-- A block `X` written back at point `t` is block `t` of an array `U` as soon as row `p` of `X` is row 2000·t + p of `U`. -/
theorem written_block (t : Fin cfg0.N) (X : S2000x64.Idx → EReal) (U : S50000x64.Idx → EReal)
    (h : ∀ (p : Fin 2000) (q : Fin 64) (r : Fin 50000), r.val = t.val * 2000 + p.val → X (ix2 p q) = U (ix2 r q)) :
    (cfg0.win 9).cut (grid0.coords t) X = ((cfg0.win 9).blk t).view.read (Elt Ideal) U := by
  show X = fun y : S2000x64.Idx => U (((cfg0.win 9).blk t).view.emb y)
  funext y
  obtain ⟨p, q, rfl⟩ : ∃ (p : Fin 2000) (q : Fin 64), y = ix2 p q := ⟨y 0, y 1, eq_ix2 y⟩
  have hN : cfg0.N = 25 := N_0
  have hr : t.val * 2000 + p.val < 50000 := by have := t.isLt; have := p.isLt; omega
  refine (h p q ⟨t.val * 2000 + p.val, hr⟩ rfl).trans (congrArg U (funext fun d => Fin.ext ?_))
  match d with
  | ⟨0, _⟩ => show t.val * 2000 + p.val = win0_9.index t 0 * 2000 + 1 * p.val; rw [(idx_rows t).2.2.2.1]; omega
  | ⟨1, _⟩ => show q.val = win0_9.index t 1 * 64 + 1 * q.val; rw [(idx_rows t).2.2.2.2]; omega

/-- `updated` at node `r`, feature `q`. -/
theorem updated_apply (c : Dev nD) (r : Fin 50000) (q : Fin 64) :
    updated m c (ix2 r q)
      = Perceptron.updateAt (V m c main_v2) (V m c main_v5) (m ((c : Thread nD τ).loc main_arg0)) (m ((c : Thread nD τ).loc main_arg4))
          (m ((c : Thread nD τ).loc main_arg5)) (m ((c : Thread nD τ).loc main_arg6)) (m ((c : Thread nD τ).loc main_arg7)) r q := rfl

/-- What point `t` writes back is block `t` of `updated`. -/
theorem flushed_eq (c : Dev nD) (t : Fin cfg0.N) :
    (dats m 0 c).flushed 9 t = ((cfg0.win 9).blk t).view.read (Elt Ideal) (updated m c) := by
  rw [Value.flushed9]
  unfold out0_9
  rw [View.canon_unit_zero zero2]
  simp only [View.ld_unit_zero (S := S2000x64) zero2, View.ld_unit_zero (S := S64x256) zero2,
    View.ld_unit_zero (S := S256x64) zero2, View.ld_unit_zero (S := S256) zero1, View.ld_unit_zero (S := S64) zero1]
  refine written_block t _ (updated m c) fun p q r hr => ?_
  rw [updated_apply]
  exact Body.block_entry (V m c main_v2) (V m c main_v5) (m ((c : Thread nD τ).loc main_arg0)) (m ((c : Thread nD τ).loc main_arg4))
    (m ((c : Thread nD τ).loc main_arg5)) (m ((c : Thread nD τ).loc main_arg6)) (m ((c : Thread nD τ).loc main_arg7))
    (iblk m c 0 t) (iblk m c 1 t) (iblk m c 2 t) (iblk m c 3 t) (iblk m c 4 t) (iblk m c 5 t) (iblk m c 7 t) (iblk m c 6 t) (iblk m c 8 t)
    r p q
    (fun a => incoming_block m c t p a r hr) (fun a => outgoing_block m c t p a r hr) (fun a => node_block m c t p a r hr)
    (fun a k => weights_first_block m c t a k) (fun a k => weights_second_block m c t a k) (fun a k => weights_third_block m c t a k)
    (fun k => bias_first_block m c t k) (fun k j => weights_out_block m c t k j) (fun j => bias_out_block m c t j)

/-- An index of the array is in point `t`'s block iff each coordinate is in the block's range on its axis. -/
theorem mem_block (t : Fin cfg0.N) (i : S50000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v9).slice (win0_9.rect t)).set ↔ _
  rw [View.set_slice_whole, Rect.mem_set_unit]
  exact Iff.rfl

/-- Every row lies in the block of the point numbered by the row over 2000. -/
theorem covered (i : S50000x64.Idx) : ∃ t : Fin cfg0.N, (cfg0.win 9).flush t = true ∧ i ∈ ((cfg0.win 9).blk t).view.set := by
  have hN : cfg0.N = 25 := N_0
  have hi0 : (i 0).val < 50000 := (i 0).isLt
  have hi1 : (i 1).val < 64 := (i 1).isLt
  let t : Fin cfg0.N := ⟨(i 0).val / 2000, by omega⟩
  have ht : t.val = (i 0).val / 2000 := rfl
  have e0 : win0_9.index t (0 : Fin 2) = t.val := (idx_rows t).2.2.2.1
  have e1 : win0_9.index t (1 : Fin 2) = 0 := (idx_rows t).2.2.2.2
  refine ⟨t, flush0_9 t, ?_⟩
  rw [mem_block]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 64 ≤ (i 1).val ∧ (i 1).val < win0_9.index t (1 : Fin 2) * 64 + 64; rw [e1]; omega

/-- The output array after the run. -/
theorem final (c : Dev nD) : (dats m 0 c).arrAt 9 cfg0.N = updated m c :=
  (dats m 0 c).arrAt_eq_of_cover 9 (updated m c) (fun t _ => flushed_eq m c t) covered

/-- The kernel's run with its result named: the perceptron update, the arguments unchanged. -/
theorem run : θ_run defs (onTc (τ := τ) (main (F := Ideal))) ⟨m, fun _ => 0, ρ⟩ fun r => ∀ c : Dev nD,
      r.2.mem ((c : Thread nD τ).loc main_v9) = updated m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Array

end
-- ==== Proof.ReferenceRows.lean ====
/-
  The reference, row by row.

  The reference lays the incoming aggregate, the outgoing aggregate and the node features side by side into a
  [50000, 192] array and contracts it against the whole first weight matrix. Column `a` of the joined array is column
  `a` of the first part for a < 64, column `a − 64` of the second for 64 ≤ a < 128 and column `a − 128` of the third
  otherwise, so a row of the joined array, cut in thirds, is the three rows the perceptron takes. With the split of
  the 192-term sum (Perceptron.lean) the reference's result at node `r`, feature `j`, is `Perceptron.updateAt` of the
  two aggregates — kept as the scatter-add terms they are — and the five remaining arguments.
-/
import proofs.«152120_j69346541961223_1_alg».proof.Proof.Gen.ReferenceIdeal.Read
import proofs.«152120_j69346541961223_1_alg».proof.Proof.Perceptron

noncomputable section

namespace Cert.ReferenceIdeal.Rows

open Cert.ReferenceIdeal Cert.ReferenceIdeal.Gen Cert.ReferenceIdeal.Read
open Idealize.ShloMosaic Idealize.ShloMosaic.ValueIdx

/-! ## The joined array, column by column -/

section Joined
variable (A B C : S50000x64.Idx → EReal)
  (h : Shape.Concatenates (([⟨S50000x64, A⟩, ⟨S50000x64, B⟩, ⟨S50000x64, C⟩] : List ((s : Shape) × (s.Idx → EReal))).map (·.1)) S50000x192 1)
  (r : Fin 50000) (a : Fin 64)

/-- Columns 0 … 63 of the joined array are the first part's. -/
theorem joined_first (hlt : a.val < 192) :
    concatenate S50000x192 1 [⟨S50000x64, A⟩, ⟨S50000x64, B⟩, ⟨S50000x64, C⟩] h (ix2 r (⟨a.val, hlt⟩ : Fin 192)) = A (ix2 r a) :=
  concatenate_apply_piece 1 _ h _ 0 (by decide : (0 : Nat) < 3) S50000x64 A rfl rfl 0 rfl (ix2 r a)
    (fun b hb => by
      match b with
      | ⟨0, _⟩ => rfl
      | ⟨1, _⟩ => exact absurd rfl hb)
    (Nat.zero_add _)

/-- Columns 64 … 127 are the second part's. -/
theorem joined_second (hlt : 64 + a.val < 192) :
    concatenate S50000x192 1 [⟨S50000x64, A⟩, ⟨S50000x64, B⟩, ⟨S50000x64, C⟩] h (ix2 r (⟨64 + a.val, hlt⟩ : Fin 192)) = B (ix2 r a) :=
  concatenate_apply_piece 1 _ h _ 1 (by decide : (1 : Nat) < 3) S50000x64 B rfl rfl 64 rfl (ix2 r a)
    (fun b hb => by
      match b with
      | ⟨0, _⟩ => rfl
      | ⟨1, _⟩ => exact absurd rfl hb)
    rfl

/-- Columns 128 … 191 are the third part's. -/
theorem joined_third (hlt : 128 + a.val < 192) :
    concatenate S50000x192 1 [⟨S50000x64, A⟩, ⟨S50000x64, B⟩, ⟨S50000x64, C⟩] h (ix2 r (⟨128 + a.val, hlt⟩ : Fin 192)) = C (ix2 r a) :=
  concatenate_apply_piece 1 _ h _ 2 (by decide : (2 : Nat) < 3) S50000x64 C rfl rfl 128 rfl (ix2 r a)
    (fun b hb => by
      match b with
      | ⟨0, _⟩ => rfl
      | ⟨1, _⟩ => exact absurd rfl hb)
    rfl

end Joined

/-! ## The indices the generated reading lemmas compose, as coordinates -/

theorem lidx7 (r : Fin 50000) (k : Fin 256) (a : Fin 192) : lidx_main_v7 (ix2 r k) a = ix2 r a :=
  funext fun d => Fin.ext (by match d with | ⟨0, _⟩ => rfl | ⟨1, _⟩ => rfl)
theorem ridx7 (r : Fin 50000) (k : Fin 256) (a : Fin 192) : ridx_main_v7 (ix2 r k) a = ix2 a k :=
  funext fun d => Fin.ext (by match d with | ⟨0, _⟩ => rfl | ⟨1, _⟩ => rfl)
theorem bias1 (r : Fin 50000) (k : Fin 256) : idx_main_v8 (idx_main_v9 (ix2 r k)) = ix1 k :=
  funext fun d => Fin.ext (by match d with | ⟨0, _⟩ => rfl)
theorem lidx12 (r : Fin 50000) (j : Fin 64) (k : Fin 256) : lidx_main_v12 (ix2 r j) k = ix2 r k :=
  funext fun d => Fin.ext (by match d with | ⟨0, _⟩ => rfl | ⟨1, _⟩ => rfl)
theorem ridx12 (r : Fin 50000) (j : Fin 64) (k : Fin 256) : ridx_main_v12 (ix2 r j) k = ix2 k j :=
  funext fun d => Fin.ext (by match d with | ⟨0, _⟩ => rfl | ⟨1, _⟩ => rfl)
theorem bias2 (r : Fin 50000) (j : Fin 64) : idx_main_v13 (idx_main_v14 (ix2 r j)) = ix1 j :=
  funext fun d => Fin.ext (by match d with | ⟨0, _⟩ => rfl)

/-! ## The two layers -/

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal)) (x4 : (⟨S192x256, .f32⟩ : BufTy).Contents (Elt Ideal))
  (x5 : (⟨S256, .f32⟩ : BufTy).Contents (Elt Ideal)) (x6 : (⟨S256x64, .f32⟩ : BufTy).Contents (Elt Ideal))
  (x7 : (⟨S64, .f32⟩ : BufTy).Contents (Elt Ideal))

/-- The rectified hidden layer at node `r`, unit `k`: the perceptron's, over row `r` of the two aggregates and of the node
    features. -/
theorem hidden_eq (r : Fin 50000) (k : Fin 256) :
    val_main_v11 (F := Ideal) x0 x1 x2 x3 x4 x5 (ix2 r k)
      = max (Perceptron.pre (fun a => val_main_v2 (F := Ideal) x1 x3 (ix2 r a)) (fun a => val_main_v5 (F := Ideal) x1 x2 (ix2 r a))
          (fun a => x0 (ix2 r a))
          (fun a k => x4 (ix2 (⟨a.val, by have := a.isLt; omega⟩ : Fin 192) k))
          (fun a k => x4 (ix2 (⟨64 + a.val, by have := a.isLt; omega⟩ : Fin 192) k))
          (fun a k => x4 (ix2 (⟨128 + a.val, by have := a.isLt; omega⟩ : Fin 192) k))
          (fun k => x5 (ix1 k)) k) 0 := by
  rw [val_main_v11_apply, val_main_v10_apply, val_main_v7_apply, val_main_v9_apply, val_main_v8_apply,
    val_main_call0_v0_apply, val_main_call0_cst_apply, bias1]
  simp only [lidx7, ridx7]
  show max ((∑ a : Fin 192, val_main_v6 (F := Ideal) x0 x1 x2 x3 (ix2 r a) * x4 (ix2 a k)) + x5 (ix1 k)) (Ideal.ofBits .f32 0x00000000#32) = _
  rw [Ideal.ofBits_zero_f32,
    Perceptron.pre_of_joint (fun a => val_main_v6 (F := Ideal) x0 x1 x2 x3 (ix2 r a)) (fun a k => x4 (ix2 a k)) (fun k => x5 (ix1 k)) k]
  unfold val_main_v6
  simp only [joined_first, joined_second, joined_third]

/-- The reference's result at node `r`, feature `j`. -/
theorem result_apply (r : Fin 50000) (j : Fin 64) :
    val_main_v15 (F := Ideal) x0 x1 x2 x3 x4 x5 x6 x7 (ix2 r j)
      = Perceptron.updateAt (val_main_v2 (F := Ideal) x1 x3) (val_main_v5 (F := Ideal) x1 x2) x0 x4 x5 x6 x7 r j := by
  rw [val_main_v15_apply, val_main_v12_apply, val_main_v14_apply, val_main_v13_apply, bias2]
  simp only [lidx12, ridx12, hidden_eq]
  rfl

/-- The reference's result, as an array, is the perceptron update of the two aggregates and the node features. -/
theorem result_eq :
    val_main_v15 (F := Ideal) x0 x1 x2 x3 x4 x5 x6 x7
      = Perceptron.update (val_main_v2 (F := Ideal) x1 x3) (val_main_v5 (F := Ideal) x1 x2) x0 x4 x5 x6 x7 := by
  funext i
  obtain ⟨r, j, rfl⟩ : ∃ (r : Fin 50000) (j : Fin 64), i = ix2 r j := ⟨i 0, i 1, eq_ix2 i⟩
  rw [result_apply, Perceptron.update_apply]

end Cert.ReferenceIdeal.Rows

end
-- ==== Proof.lean ====
/-
  A graph network's node update: the kernel and its reference compute the same array over the extended reals.

  Both programs first add every edge's 64 features into the row of its receiver (the incoming aggregate) and, in a
  second array, into the row of its sender (the outgoing aggregate): the same scatter-add of the same operands, so the
  two programs hold the same two [50000, 64] arrays, whatever they contain. Then each node's new features are a
  two-layer perceptron of its row of the incoming aggregate, its row of the outgoing aggregate and its own features:

      out j = (∑ k < 256, max (pre k) 0 · W₂ k j) + b₂ j,      pre k = (∑ a < 192, x a · W₁ a k) + b₁ k,

  x the 192 numbers side by side. The reference joins the three arrays along the columns and contracts the 192 at
  once. The kernel works on 25 blocks of 2000 nodes; it never joins them, but multiplies each 64-wide part by the
  matching 64 rows of W₁ (cut out before the launch) and adds the three products, and its narrowings to bf16 are the
  identity on extended reals. A sum over 192 indices is the sum of the sums over its three consecutive thirds — only
  commutativity and associativity of addition — so the two agree entry by entry with no finiteness assumption: the
  precondition is never opened.

  Perceptron.lean has the function and the split of the sum; ReferenceRows.lean reads the reference's result as that
  function; KernelBody.lean reads one stored block entry as it; KernelArray.lean assembles the 25 blocks into the
  whole array. Here the five claims are put together.
-/
import proofs.«152120_j69346541961223_1_alg».proof.Defs
import proofs.«152120_j69346541961223_1_alg».proof.Proof.Gen.Kernel
import proofs.«152120_j69346541961223_1_alg».proof.Proof.Gen.Kernel.Skeleton
import proofs.«152120_j69346541961223_1_alg».proof.Proof.Gen.Kernel.Launch
import proofs.«152120_j69346541961223_1_alg».proof.Proof.Gen.Kernel.Points
import proofs.«152120_j69346541961223_1_alg».proof.Proof.Gen.Kernel.Frame
import proofs.«152120_j69346541961223_1_alg».proof.Proof.Gen.KernelIdeal
import proofs.«152120_j69346541961223_1_alg».proof.Proof.Gen.KernelIdeal.Skeleton
import proofs.«152120_j69346541961223_1_alg».proof.Proof.Gen.KernelIdeal.Launch
import proofs.«152120_j69346541961223_1_alg».proof.Proof.Gen.KernelIdeal.Points
import proofs.«152120_j69346541961223_1_alg».proof.Proof.Gen.KernelIdeal.Frame
import proofs.«152120_j69346541961223_1_alg».proof.Proof.Gen.ReferenceIdeal
import proofs.«152120_j69346541961223_1_alg».proof.Proof.Gen.Pre_finite_inputs
import proofs.«152120_j69346541961223_1_alg».proof.Proof.Gen.KernelIdeal.Value
import proofs.«152120_j69346541961223_1_alg».proof.Proof.Gen.ReferenceIdeal.Run
import proofs.«152120_j69346541961223_1_alg».proof.Proof.Gen.ReferenceIdeal.Read
import proofs.«152120_j69346541961223_1_alg».proof.Proof.KernelArray
import proofs.«152120_j69346541961223_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs to its end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the perceptron update of the same two aggregates and the same
    node features and parameters. -/
theorem algebraic : Cert.algebraic_KernelIdeal_ReferenceIdeal := by
  intro m ρ m' ρ' _ hagree
  refine ⟨fun c => Cert.KernelIdeal.Array.updated m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Array.updated m c
  obtain ⟨a0, a1, a2, a3, a4, a5, a6, a7⟩ := hagree c
  rw [Cert.ReferenceIdeal.Read.val_main_v15_eq, Cert.ReferenceIdeal.Rows.result_eq, a0, a1, a2, a3, a4, a5, a6, a7]
  unfold Cert.KernelIdeal.Array.updated
  rw [Cert.KernelIdeal.Array.incoming_eq, Cert.KernelIdeal.Array.outgoing_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
